-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S4x1x2048x2048 : Shape := ⟨4, ![4, 1, 2048, 2048]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel

variable [Facts]

def fn {F : FTy → Type} [FloatOps F] (main_arg0 : FVec F S4x8x2048x64 .f32) (main_arg1 : FVec F S4x8x2048x64 .f32) (main_arg2 : FVec F S4x8x2048x64 .f32) (main_arg3 : IVec S4x1x2048x2048 32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  main_v13
-- ==== Kernel.lean ====
abbrev S4x8x2048x64 : Shape := ⟨4, ![4, 8, 2048, 64]⟩
abbrev S4x1x2048x2048 : Shape := ⟨4, ![4, 1, 2048, 2048]⟩
abbrev S1x8x256x64 : Shape := ⟨4, ![1, 8, 256, 64]⟩
abbrev S1x8x2048x64 : Shape := ⟨4, ![1, 8, 2048, 64]⟩
abbrev S1x1x256x2048 : Shape := ⟨4, ![1, 1, 256, 2048]⟩
abbrev S256x2048 : Shape := ⟨2, ![256, 2048]⟩
abbrev S1x1x256x64 : Shape := ⟨4, ![1, 1, 256, 64]⟩
abbrev S256x64 : Shape := ⟨2, ![256, 64]⟩
abbrev S1x1x2048x64 : Shape := ⟨4, ![1, 1, 2048, 64]⟩
abbrev S2048x64 : Shape := ⟨2, ![2048, 64]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x1x2048x2048, .i32⟩
  | .hbm, ⟨4, _⟩ => ⟨S4x8x2048x64, .f32⟩
  | .local _ .vmem, ⟨0, _⟩ => ⟨S1x8x256x64, .f32⟩
  | .local _ .vmem, ⟨1, _⟩ => ⟨S1x8x256x64, .f32⟩
  | .local _ .vmem, ⟨2, _⟩ => ⟨S1x8x2048x64, .f32⟩
  | .local _ .vmem, ⟨3, _⟩ => ⟨S1x8x2048x64, .f32⟩
  | .local _ .vmem, ⟨4, _⟩ => ⟨S1x1x256x2048, .i32⟩
  | .local _ .vmem, ⟨5, _⟩ => ⟨S1x1x256x2048, .i32⟩
  | .local _ .vmem, ⟨6, _⟩ => ⟨S1x8x256x64, .f32⟩
  | .local _ .vmem, ⟨7, _⟩ => ⟨S1x8x256x64, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_3 : BitVec 32 := 0#32
  let c8_i32 : BitVec 32 := 8#32
  let v4 : BitVec 32 := Scalar.addi c0_i32_3 c8_i32
  let c1_i32 : BitVec 32 := 1#32
  ⟨c0_i32_3, v4, c1_i32⟩
def k0_off1 (k0_t1 : Fin k0_t1_loop.trips) : Fin 4 → Nat :=
  let c0_5 : Index := 0#32
  let c0_i32_3 : BitVec 32 := 0#32
  let c1_i32 : BitVec 32 := 1#32
  let arg7 : BitVec 32 := Scf.iv c0_i32_3 c1_i32 k0_t1
  let v5 : Index := Scalar.indexCast arg7
  let c0_6 : Index := 0#32
  let c0_7 : Index := 0#32
  ![0, v5.toNat, 0, 0]
def k0_off2 (k0_t1 : Fin k0_t1_loop.trips) : Fin 4 → Nat :=
  let c0_8 : Index := 0#32
  let c0_i32_3 : BitVec 32 := 0#32
  let c1_i32 : BitVec 32 := 1#32
  let arg7 : BitVec 32 := Scf.iv c0_i32_3 c1_i32 k0_t1
  let v11 : Index := Scalar.indexCast arg7
  let c0_9 : Index := 0#32
  let c0_10 : Index := 0#32
  ![0, v11.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x8x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  h_S1x1x256x64 : 0 < S1x1x256x64.numel
  shapeCasts_S1x1x256x64_S256x64 : S1x1x256x64.ShapeCasts S256x64
  bitsLt_bf16_f32 : FTy.bits .bf16 < FTy.bits .f32
  h_S1x1x2048x64 : 0 < S1x1x2048x64.numel
  shapeCasts_S1x1x2048x64_S2048x64 : S1x1x2048x64.ShapeCasts S2048x64
  reduces_S256x2048_S256 : S256x2048.Reduces [1] S256
  shapeCasts_S256_S256x1 : S256.ShapeCasts S256x1
  broadcasts_S256x1_S256x2048 : S256x1.Broadcasts S256x2048
  shapeCasts_S256x64_S1x1x256x64 : S256x64.ShapeCasts S1x1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  k0_t1_ok : k0_t1_loop.OK
  k0_off1_inb : ∀ k0_t1 : Fin k0_t1_loop.trips, ∀ a, (k0_off1 k0_t1) a + S1x1x256x64.size a ≤ S1x8x256x64.size a
  k0_off2_inb : ∀ k0_t1 : Fin k0_t1_loop.trips, ∀ a, (k0_off2 k0_t1) a + S1x1x2048x64.size a ≤ S1x8x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x64.size a ≤ S4x8x2048x64.size a
  hwx0_0 : ∀ i : grid0.Coords, EltTy.bits .f32 = 32 ∨ (Rect.block (s := S4x8x2048x64) S1x8x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8x2048x64.size a ≤ S4x8x2048x64.size a
  hwx0_1 : ∀ i : grid0.Coords, EltTy.bits .f32 = 32 ∨ (Rect.block (s := S4x8x2048x64) S1x8x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8x2048x64.size a ≤ S4x8x2048x64.size a
  hwx0_2 : ∀ i : grid0.Coords, EltTy.bits .f32 = 32 ∨ (Rect.block (s := S4x8x2048x64) S1x8x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S4x1x2048x2048.size a
  hwx0_3 : ∀ i : grid0.Coords, EltTy.bits .i32 = 32 ∨ (Rect.block (s := S4x1x2048x2048) S1x1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x256x64.size a ≤ S4x8x2048x64.size a
  hwx0_4 : ∀ i : grid0.Coords, EltTy.bits .f32 = 32 ∨ (Rect.block (s := S4x8x2048x64) S1x8x256x64.size (cc0_transform_4 i) (hinb0_4 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x8x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x8x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S4x1x2048x2048 : Shape := ⟨4, ![4, 1, 2048, 2048]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x1x2048x2048, .i32⟩
  | .hbm, ⟨4, _⟩ => ⟨S4x8x2048x2048, .f32⟩
  | .hbm, ⟨5, _⟩ => ⟨S_, .f32⟩
  | .hbm, ⟨6, _⟩ => ⟨S4x8x2048x2048, .f32⟩
  | .hbm, ⟨7, _⟩ => ⟨S4x8x2048x2048, .f32⟩
  | .hbm, ⟨8, _⟩ => ⟨S_, .i32⟩
  | .hbm, ⟨9, _⟩ => ⟨S4x1x2048x2048, .i32⟩
  | .hbm, ⟨10, _⟩ => ⟨S4x1x2048x2048, .i1⟩
  | .hbm, ⟨11, _⟩ => ⟨S4x1x2048x2048, .i1⟩
  | .hbm, ⟨12, _⟩ => ⟨S_, .f32⟩
  | .hbm, ⟨13, _⟩ => ⟨S4x8x2048x2048, .i1⟩
  | .hbm, ⟨14, _⟩ => ⟨S4x8x2048x2048, .f32⟩
  | .hbm, ⟨15, _⟩ => ⟨S4x8x2048x2048, .f32⟩
  | .hbm, ⟨16, _⟩ => ⟨S_, .f32⟩
  | .hbm, ⟨17, _⟩ => ⟨S4x8x2048, .f32⟩
  | .hbm, ⟨18, _⟩ => ⟨S_, .f32⟩
  | .hbm, ⟨19, _⟩ => ⟨S4x8x2048, .f32⟩
  | .hbm, ⟨20, _⟩ => ⟨S4x8x2048, .f32⟩
  | .hbm, ⟨21, _⟩ => ⟨S4x8x2048x1, .f32⟩
  | .hbm, ⟨22, _⟩ => ⟨S4x8x2048x2048, .f32⟩
  | .hbm, ⟨23, _⟩ => ⟨S4x8x2048x2048, .f32⟩
  | .hbm, ⟨24, _⟩ => ⟨S4x8x2048x2048, .f32⟩
  | .hbm, ⟨25, _⟩ => ⟨S_, .f32⟩
  | .hbm, ⟨26, _⟩ => ⟨S4x8x2048, .f32⟩
  | .hbm, ⟨27, _⟩ => ⟨S4x8x2048x1, .f32⟩
  | .hbm, ⟨28, _⟩ => ⟨S4x8x2048x2048, .f32⟩
  | .hbm, ⟨29, _⟩ => ⟨S4x8x2048x2048, .f32⟩
  | .hbm, ⟨30, _⟩ => ⟨S_, .f32⟩
  | .hbm, ⟨31, _⟩ => ⟨S4x8x2048x2048, .i1⟩
  | .hbm, ⟨32, _⟩ => ⟨S4x8x2048x2048, .f32⟩
  | .hbm, ⟨33, _⟩ => ⟨S4x8x2048x2048, .f32⟩
  | .hbm, ⟨34, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]

class Facts₀ : Prop where
  bcast_S_S4x8x2048x2048 : S_.BroadcastsInDim S4x8x2048x2048 (![] : Fin 0 → Fin S4x8x2048x2048.rank)
  bcast_S_S4x1x2048x2048 : S_.BroadcastsInDim S4x1x2048x2048 (![] : Fin 0 → Fin S4x1x2048x2048.rank)
  bcast_S4x1x2048x2048_S4x8x2048x2048_0_1_2_3 : S4x1x2048x2048.BroadcastsInDim S4x8x2048x2048 (![0, 1, 2, 3] : Fin 4 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.Softmax.lean ====
/-
  Masked softmax attention, one output entry at a time, over the extended reals.

  For one query row the data are a row of scores `s k`, a row of mask bits `mk k` and a column `v k` of the
  value matrix, `k` ranging over the keys.  A masked score is replaced by the fill `-1e9`; the row's maximum is
  taken from `-∞`; each entry becomes `exp (r k - max)` divided by the row's sum of those exponentials; a masked
  entry's weight is then set to `0`; the output entry is the weights' dot product with the column.

  The two programs differ only in where the factor `1/8` of the score sits: on each product's left factor, or on
  the finished sum.  Multiplication by a nonnegative finite extended real distributes over EVERY sum of extended
  reals (the one law used: `(y + z) * c = y * c + z * c` for `0 ≤ c < ⊤`), so the two score rows are one row.
-/
import Idealize.ShloMosaic.PureOps.Ideal
import Idealize.ShloMosaic.Lib.ValueIdx
import Mathlib.Data.EReal.Operations
import Mathlib.Data.Finset.Fold

noncomputable section

namespace Cert.Attn

open Idealize.ShloMosaic

/-- The f32 word `0x3E000000` denotes one eighth. -/
theorem ofBits_eighth : Ideal.ofBits .f32 0x3E000000#32 = ((1 / 8 : ℝ) : EReal) := by
  simp [Ideal.ofBits, Ideal.ieee, -EReal.coe_mul]; norm_num

/-- One eighth is nonnegative … -/
theorem eighth_nonneg : (0 : EReal) ≤ Ideal.ofBits .f32 0x3E000000#32 := by
  rw [ofBits_eighth]; exact EReal.coe_nonneg.mpr (by norm_num)

/-- … and finite. -/
theorem eighth_ne_top : Ideal.ofBits .f32 0x3E000000#32 ≠ ⊤ := by
  rw [ofBits_eighth]; exact EReal.coe_ne_top _

/-- A nonnegative finite factor distributes over any finite sum of extended reals. -/
theorem sum_mul_of_nonneg_of_ne_top {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- THE SCALE LAW: scaling every left factor of a dot product by one eighth is scaling the dot product. -/
theorem score_scale {d : ℕ} (q kk : Fin d → EReal) :
    ∑ j, (q j * Ideal.ofBits .f32 0x3E000000#32) * kk j = (∑ j, q j * kk j) * Ideal.ofBits .f32 0x3E000000#32 := by
  rw [sum_mul_of_nonneg_of_ne_top _ _ eighth_nonneg eighth_ne_top]
  exact Finset.sum_congr rfl fun j _ => mul_right_comm _ _ _

variable {n : ℕ}

/-- The score row with the fill `-1e9` (the f32 word `0xCE6E6B28`) wherever the mask bit is set. -/
def maskRow (mk : Fin n → BitVec 1) (s : Fin n → EReal) : Fin n → EReal :=
  fun k => Scalar.select (mk k) (Ideal.ofBits .f32 0xCE6E6B28#32) (s k)

/-- A row's maximum, folded from `-∞` (the f32 word `0xFF800000`). -/
def rowMax (r : Fin n → EReal) : EReal :=
  (Finset.univ : Finset (Fin n)).fold max (Ideal.ofBits .f32 0xFF800000#32) r

/-- The row's exponentials, shifted by its maximum. -/
def expRow (r : Fin n → EReal) (k : Fin n) : EReal := Ideal.exp (r k - rowMax r)

/-- The attention weight of key `k`: the normalised exponential of the masked score, and `0` where masked. -/
def weight (mk : Fin n → BitVec 1) (s : Fin n → EReal) (k : Fin n) : EReal :=
  Scalar.select (mk k) (Ideal.ofBits .f32 0x00000000#32)
    (Ideal.div (expRow (maskRow mk s) k) (∑ k', expRow (maskRow mk s) k'))

/-- One output entry: the weights against a column of the value matrix. -/
def attend (mk : Fin n → BitVec 1) (s v : Fin n → EReal) : EReal := ∑ k, weight mk s k * v k

/-- The reference takes the maximum once more against `-∞`: nothing changes, the fold started there. -/
theorem max_negInf_rowMax (r : Fin n → EReal) : max (Ideal.ofBits .f32 0xFF800000#32) (rowMax r) = rowMax r :=
  max_eq_right ((Finset.le_fold_max _).mpr (Or.inl le_rfl))

/-! ## The whole array -/

open Idealize.ShloMosaic.ValueIdx in
/-- THE SPECIFICATION.  Entry `(b, h, q, d)` of the result: attention of query row `q` of head `h` of batch `b` —
    its score against key row `k` the dot product over the 64 features, times one eighth — under row `q` of batch
    `b`'s mask (a nonzero word masks; the mask has no head axis), against column `d` of that head's values. -/
def attention (Q K V : (⟨4, ![4, 8, 2048, 64]⟩ : Shape).Idx → EReal) (M : (⟨4, ![4, 1, 2048, 2048]⟩ : Shape).Idx → BitVec 32)
    (b : Fin 4) (h : Fin 8) (q : Fin 2048) (d : Fin 64) : EReal :=
  attend (fun k : Fin 2048 => IntOp.cmpi .ne (M (ix4 b (0 : Fin 1) q k)) 0#32)
    (fun k : Fin 2048 => (∑ j : Fin 64, Q (ix4 b h q j) * K (ix4 b h k j)) * Ideal.ofBits .f32 0x3E000000#32)
    (fun k : Fin 2048 => V (ix4 b h k d))

end Cert.Attn

end
-- ==== Proof.LibColumn.lean ====
/-
  Two layout facts about a column kept as a trailing unit axis (`keepdims`): a vector `[a]` cast to a
  column `[a, 1]` reads, at `(i, u)`, the vector at `i`; a column `[a, 1]` broadcast along its unit axis to
  `[a, b]` reads, at `(i, j)`, the column at `(i, 0)`.  Together: a per-row quantity spread over the row.
-/
import Idealize.ShloMosaic.Lib.Pipeline.Value
import Idealize.ShloMosaic.Lib.ValueIdx

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.Column
-- ==== Proof.LibLead.lean ====
/-
  Two layout facts about a matrix kept under two leading unit axes: a `[1, 1, a, b]` array cast to `[a, b]`
  reads, at `(i, j)`, the array at `(0, 0, i, j)`; an `[a, b]` array cast to `[1, 1, a, b]` reads, at
  `(u, u', i, j)`, the matrix at `(i, j)`.  Both casts keep the row-major position, and the unit coordinates
  contribute nothing to it.
-/
import Idealize.ShloMosaic.Lib.Pipeline.Value
import Idealize.ShloMosaic.Lib.ValueIdx

namespace Cert.Lead

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have h0 : u.val = 0 := by omega
    have h1 : u'.val = 0 := by omega
    rw [Shape.rowMajor_val_four, Shape.rowMajor_val_two]
    show i.val * b + j.val = ((u.val * 1 + u'.val) * a + i.val) * b + j.val
    rw [h0, h1]; simp)

end Cert.Lead
-- ==== Proof.KernelBody.lean ====
/-
  What one head's arithmetic in the kernel body computes, entry by entry.

  For one grid point and one head the body holds a `[256, 64]` block of queries, the head's `[2048, 64]` keys and
  values and the point's `[256, 2048]` block of mask words.  Entry `(r, d)` of what it stores is masked softmax
  attention of query row `r` against value column `d` (`Attn.attend`): the scores of row `r` are the products of
  the query row, each entry scaled by one eighth, with the key rows, summed over the 64 features; the row's maximum
  and its sum of exponentials are lane reductions spread back over the row through a `[256, 1]` column; the weights
  meet the values in a second matrix product.  The narrowing to bf16 on the way into each product is the identity on
  the extended reals.
-/
import proofs.«406995_j42125039239585_3_alg».proof.Proof.Gen.KernelIdeal.Skeleton
import proofs.«406995_j42125039239585_3_alg».proof.Proof.Softmax
import proofs.«406995_j42125039239585_3_alg».proof.Proof.LibColumn
import proofs.«406995_j42125039239585_3_alg».proof.Proof.LibLead
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The two matrix products at an entry -/

/-- The score product's left operand index at output `(r, k)` and feature `q`: row `r` … -/
theorem lhs_score_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
/-- … feature `q`. -/
theorem lhs_score_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
/-- Its right operand index: key row `k` … -/
theorem rhs_score_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
/-- … feature `q`. -/
theorem rhs_score_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- Score `(r, k)`: query row `r` against key row `k`, summed over the 64 features. -/
theorem score_apply (q : FVec Ideal S256x64 .bf16) (kk : FVec Ideal S2048x64 .bf16) (r : Fin 256) (k : Fin 2048) :
    matmul dot_S256x64_S2048x64_S256x2048_1_1_0_0_n_n none q kk (constant S256x2048 .f32 0x00000000#32) (ix2 r k)
      = ∑ j : Fin 64, q (ix2 r j) * kk (ix2 k j) := by
  simp only [matmul]
  rw [Ideal.matmul_constant_zero_apply, ← Equiv.sum_comp (contrEquiv1 dot_S256x64_S2048x64_S256x2048_1_1_0_0_n_n 64 rfl rfl).symm]
  refine Finset.sum_congr rfl fun j _ => ?_
  have hj := contrEquiv1_symm_val dot_S256x64_S2048x64_S256x2048_1_1_0_0_n_n 64 rfl rfl j
  have el : dot_S256x64_S2048x64_S256x2048_1_1_0_0_n_n.lhsIdx (ix2 r k) ((contrEquiv1 dot_S256x64_S2048x64_S256x2048_1_1_0_0_n_n 64 rfl rfl).symm j) = ix2 r j := funext fun a => Fin.ext (by
    match a with
    | ⟨0, _⟩ => exact lhs_score_0 _ _
    | ⟨1, _⟩ => exact (lhs_score_1 _ _).trans hj)
  have er : dot_S256x64_S2048x64_S256x2048_1_1_0_0_n_n.rhsIdx (ix2 r k) ((contrEquiv1 dot_S256x64_S2048x64_S256x2048_1_1_0_0_n_n 64 rfl rfl).symm j) = ix2 k j := funext fun a => Fin.ext (by
    match a with
    | ⟨0, _⟩ => exact rhs_score_0 _ _
    | ⟨1, _⟩ => exact (rhs_score_1 _ _).trans hj)
  rw [el, er]

/-- The output product's left operand index at output `(r, d)` and key `q`: row `r` … -/
theorem lhs_out_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
/-- … key `q`. -/
theorem lhs_out_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
/-- Its right operand index: key `q` … -/
theorem rhs_out_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
/-- … column `d`. -/
theorem rhs_out_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Output `(r, d)`: weight row `r` against value column `d`, summed over the 2048 keys. -/
theorem out_apply (a : FVec Ideal S256x2048 .bf16) (vv : FVec Ideal S2048x64 .bf16) (r : Fin 256) (d : Fin 64) :
    matmul dot_S256x2048_S2048x64_S256x64_1_0_0_1_n_n none a vv (constant S256x64 .f32 0x00000000#32) (ix2 r d)
      = ∑ k : Fin 2048, a (ix2 r k) * vv (ix2 k d) := by
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d) ((contrEquiv1 dot_S256x2048_S2048x64_S256x64_1_0_0_1_n_n 2048 rfl rfl).symm k) = ix2 r k := funext fun a => Fin.ext (by
    match a with
    | ⟨0, _⟩ => exact lhs_out_0 _ _
    | ⟨1, _⟩ => exact (lhs_out_1 _ _).trans hk)
  have er : dot_S256x2048_S2048x64_S256x64_1_0_0_1_n_n.rhsIdx (ix2 r d) ((contrEquiv1 dot_S256x2048_S2048x64_S256x64_1_0_0_1_n_n 2048 rfl rfl).symm k) = ix2 k d := funext fun a => Fin.ext (by
    match a with
    | ⟨0, _⟩ => exact (rhs_out_0 _ _).trans hk
    | ⟨1, _⟩ => exact rhs_out_1 _ _)
  rw [el, er]

/-! ## A row's maximum and sum, spread back over the row -/

/-- The index of row `r` with lane `k` put back is `(r, k)`. -/
theorem lift_row (r : Fin 256) (k : Fin 2048) : reduces_S256x2048_S256.lift (ix1 r) k = ix2 r k :=
  funext fun a => Fin.ext (by match a with | ⟨0, _⟩ => rfl | ⟨1, _⟩ => rfl)

/-- The lane maximum from `-∞`, kept as a column and broadcast along the row, is at `(r, k)` row `r`'s maximum. -/
theorem rowmax_apply (x : FVec Ideal S256x2048 .f32) (hφ : FKind.Formats .f32)
    (hacc : (0xFF800000#32 : BitVec 32) = FKind.maximumf.neutral .f32 hφ) (r : Fin 256) (k : Fin 2048) :
    broadcastTo S256x2048 (shapeCast S256x1 (multiReduction .maximumf [1] S256 x 0xFF800000#32 reduces_S256x2048_S256 hφ hacc)
        shapeCasts_S256_S256x1) broadcasts_S256x1_S256x2048 (ix2 r k)
      = Attn.rowMax fun k' : Fin 2048 => x (ix2 r k') := by
  rw [Column.broadcastTo_a1_ab_apply, Column.shapeCast_a_a1_apply, Ideal.multiReduction_maximumf_single]
  unfold Attn.rowMax
  exact congrArg (fun f => (Finset.univ : Finset (Fin 2048)).fold max (Ideal.ofBits .f32 0xFF800000#32) f)
    (funext fun k' => congrArg x (lift_row r k'))

/-- The lane sum from `0`, kept as a column and broadcast along the row, is at `(r, k)` row `r`'s sum. -/
theorem rowsum_apply (x : FVec Ideal S256x2048 .f32) (hφ : FKind.Formats .f32)
    (hacc : (0x00000000#32 : BitVec 32) = FKind.add.neutral .f32 hφ) (r : Fin 256) (k : Fin 2048) :
    broadcastTo S256x2048 (shapeCast S256x1 (multiReduction .add [1] S256 x 0x00000000#32 reduces_S256x2048_S256 hφ hacc)
        shapeCasts_S256_S256x1) broadcasts_S256x1_S256x2048 (ix2 r k)
      = ∑ k' : Fin 2048, x (ix2 r k') := by
  rw [Column.broadcastTo_a1_ab_apply, Column.shapeCast_a_a1_apply, Ideal.multiReduction_add_single]
  exact Finset.sum_congr rfl fun k' _ => congrArg x (lift_row r k')

/-! ## The softmax part, over any mask bits, scores and values -/

/-- A matrix's row maxima (each from `-∞`), kept as a column and spread back over the rows. -/
def rowMaxSpread (x : FVec Ideal S256x2048 .f32) : FVec Ideal S256x2048 .f32 :=
  broadcastTo S256x2048 (shapeCast S256x1
    (multiReduction .maximumf [1] S256 x 0xFF800000#32 reduces_S256x2048_S256 (.inl rfl) rfl) shapeCasts_S256_S256x1)
    broadcasts_S256x1_S256x2048

/-- A matrix's row sums (each from `0`), kept as a column and spread back over the rows. -/
def rowSumSpread (x : FVec Ideal S256x2048 .f32) : FVec Ideal S256x2048 .f32 :=
  broadcastTo S256x2048 (shapeCast S256x1
    (multiReduction .add [1] S256 x 0x00000000#32 reduces_S256x2048_S256 (.inl rfl) rfl) shapeCasts_S256_S256x1)
    broadcasts_S256x1_S256x2048

theorem rowMaxSpread_apply (x : FVec Ideal S256x2048 .f32) (r : Fin 256) (k : Fin 2048) :
    rowMaxSpread x (ix2 r k) = Attn.rowMax fun k' : Fin 2048 => x (ix2 r k') :=
  rowmax_apply x _ _ r k

theorem rowSumSpread_apply (x : FVec Ideal S256x2048 .f32) (r : Fin 256) (k : Fin 2048) :
    rowSumSpread x (ix2 r k) = ∑ k' : Fin 2048, x (ix2 r k') :=
  rowsum_apply x _ _ r k

/-- The scores with the fill `-1e9` wherever the mask bit is set. -/
def filled (c : IVec S256x2048 1) (S : FVec Ideal S256x2048 .f32) : FVec Ideal S256x2048 .f32 :=
  select c (broadcast S256x2048 (Scalar.ofBits (F := Ideal) .f32 0xCE6E6B28#32)) S

/-- The exponentials of the filled scores less their row's maximum. -/
def expd (c : IVec S256x2048 1) (S : FVec Ideal S256x2048 .f32) : FVec Ideal S256x2048 .f32 :=
  exp (subf (filled c S) (rowMaxSpread (filled c S)))

/-- From the mask bits `c`, the scores `S` and the values `vv` on: the fill, the row maximum, the exponentials, the
    row sum, the quotient, the zero fill, the product with the values — the body's operations from its first
    `select` to its second matrix product. -/
def tail (c : IVec S256x2048 1) (S : FVec Ideal S256x2048 .f32) (vv : FVec Ideal S2048x64 .bf16) : FVec Ideal S256x64 .f32 :=
  matmul dot_S256x2048_S2048x64_S256x64_1_0_0_1_n_n none
    (truncf .bf16 (select c (broadcast S256x2048 (Scalar.ofBits (F := Ideal) .f32 0x00000000#32))
      (divf (expd c S) (rowSumSpread (expd c S)))) bitsLt_bf16_f32)
    vv (constant S256x64 .f32 0x00000000#32)

/-- On row `r` the exponentials are the row's `Attn.expRow`. -/
theorem expd_apply (c : IVec S256x2048 1) (S : FVec Ideal S256x2048 .f32) (r : Fin 256) (k : Fin 2048) :
    expd c S (ix2 r k) = Attn.expRow (Attn.maskRow (fun k : Fin 2048 => c (ix2 r k)) (fun k => S (ix2 r k))) k := by
  show Ideal.exp (filled c S (ix2 r k) - rowMaxSpread (filled c S) (ix2 r k)) = _
  rw [rowMaxSpread_apply]
  rfl

/-- Entry `(r, d)` of it is masked softmax attention of row `r` of the scores, under row `r` of the mask bits,
    against column `d` of the values. -/
theorem tail_apply (c : IVec S256x2048 1) (S : FVec Ideal S256x2048 .f32) (vv : FVec Ideal S2048x64 .bf16)
    (r : Fin 256) (d : Fin 64) :
    tail c S vv (ix2 r d)
      = Attn.attend (fun k : Fin 2048 => c (ix2 r k)) (fun k => S (ix2 r k)) (fun k => vv (ix2 k d)) := by
  unfold tail Attn.attend
  rw [out_apply]
  refine Finset.sum_congr rfl fun k _ => ?_
  refine congrArg (· * vv (ix2 k d)) ?_
  show Scalar.select (c (ix2 r k)) (Ideal.ofBits .f32 0x00000000#32)
      (Ideal.div (expd c S (ix2 r k)) (rowSumSpread (expd c S) (ix2 r k))) = _
  rw [rowSumSpread_apply, expd_apply]
  exact congrArg (fun z => Scalar.select (c (ix2 r k)) (Ideal.ofBits .f32 0x00000000#32)
      (Ideal.div (Attn.expRow (Attn.maskRow (fun k : Fin 2048 => c (ix2 r k)) (fun k => S (ix2 r k))) k) z))
    (Finset.sum_congr rfl fun k' _ => expd_apply c S r k')

/-- Attention depends on its three rows entry by entry. -/
theorem attend_congr {n : ℕ} {mk mk' : Fin n → BitVec 1} {s s' v v' : Fin n → EReal}
    (h1 : ∀ k, mk k = mk' k) (h2 : ∀ k, s k = s' k) (h3 : ∀ k, v k = v' k) :
    Attn.attend mk s v = Attn.attend mk' s' v' := by
  rw [show mk = mk' from funext h1, show s = s' from funext h2, show v = v' from funext h3]

/-! ## The payload -/

/-- The body's stored value is the softmax part of: the mask words compared with zero; the queries scaled by one
    eighth against the keys; the values — each block first cast to a matrix. -/
theorem pay_eq_tail (v0 : Vec Ideal S1x1x256x2048 .i32) (v6 : Vec Ideal S1x1x256x64 .f32) (v12 v16 : Vec Ideal S1x1x2048x64 .f32) :
    k0_pay1 (F := Ideal) v0 v6 v12 v16
      = shapeCast S1x1x256x64
          (tail (cmpi .ne (shapeCast S256x2048 v0 shapeCasts_S1x1x256x2048_S256x2048) (broadcast S256x2048 0#32))
            (matmul dot_S256x64_S2048x64_S256x2048_1_1_0_0_n_n none
              (truncf .bf16 (mulf (shapeCast S256x64 v6 shapeCasts_S1x1x256x64_S256x64)
                (broadcast S256x64 (Scalar.ofBits (F := Ideal) .f32 0x3E000000#32))) bitsLt_bf16_f32)
              (truncf .bf16 (shapeCast S2048x64 v12 shapeCasts_S1x1x2048x64_S2048x64) bitsLt_bf16_f32)
              (constant S256x2048 .f32 0x00000000#32))
            (truncf .bf16 (shapeCast S2048x64 v16 shapeCasts_S1x1x2048x64_S2048x64) bitsLt_bf16_f32))
          shapeCasts_S256x64_S1x1x256x64 := rfl

/-- ENTRY `(0, 0, r, d)` OF THE PAYLOAD: attention of query row `r` — its scores the scaled queries against every
    key row — under mask row `r`, against value column `d`, all read off the loaded blocks. -/
theorem pay_apply (v0 : Vec Ideal S1x1x256x2048 .i32) (v6 : Vec Ideal S1x1x256x64 .f32) (v12 v16 : Vec Ideal S1x1x2048x64 .f32)
    (r : Fin 256) (d : Fin 64) :
    k0_pay1 (F := Ideal) v0 v6 v12 v16 (ix4 (0 : Fin 1) (0 : Fin 1) r d)
      = Attn.attend (fun k : Fin 2048 => IntOp.cmpi .ne (v0 (ix4 (0 : Fin 1) (0 : Fin 1) r k)) 0#32)
          (fun k : Fin 2048 => ∑ j : Fin 64, (v6 (ix4 (0 : Fin 1) (0 : Fin 1) r j) * Ideal.ofBits .f32 0x3E000000#32)
            * v12 (ix4 (0 : Fin 1) (0 : Fin 1) k j))
          (fun k : Fin 2048 => v16 (ix4 (0 : Fin 1) (0 : Fin 1) k d)) := by
  rw [pay_eq_tail, Lead.shapeCast_ab_11ab_apply, tail_apply]
  refine attend_congr (fun k => ?_) (fun k => ?_) (fun k => ?_)
  · show IntOp.cmpi .ne (shapeCast S256x2048 v0 shapeCasts_S1x1x256x2048_S256x2048 (ix2 r k)) 0#32 = _
    rw [Lead.shapeCast_11ab_ab_apply]
  · rw [score_apply]
    refine Finset.sum_congr rfl fun j _ => ?_
    show (shapeCast S256x64 v6 shapeCasts_S1x1x256x64_S256x64 (ix2 r j) * Ideal.ofBits .f32 0x3E000000#32)
      * shapeCast S2048x64 v12 shapeCasts_S1x1x2048x64_S2048x64 (ix2 k j) = _
    rw [Lead.shapeCast_11ab_ab_apply, Lead.shapeCast_11ab_ab_apply]
  · show shapeCast S2048x64 v16 shapeCasts_S1x1x2048x64_S2048x64 (ix2 k d) = _
    rw [Lead.shapeCast_11ab_ab_apply]

end Cert.KernelIdeal.Body

end
-- ==== Proof.KernelPieces.lean ====
/-
  What one grid point's body leaves in the output's staging block, entry by entry.

  The body loops over the 8 heads.  Trip `k` loads head `k` of the query block and of the key and value blocks,
  computes that head's attention (the payload) against the point's mask block, and stores it at head `k` of the
  output block: one piece per trip, at offset `(0, k, 0, 0)`.  The 8 pieces tile the block, so entry `(0, h, r, d)`
  of the block is entry `(r, d)` of head `h`'s attention: query row `r` of head `h` against that head's keys, under
  mask row `r` (the mask has no head axis), against column `d` of that head's values.
-/
import proofs.«406995_j42125039239585_3_alg».proof.Proof.Gen.KernelIdeal.Frame
import proofs.«406995_j42125039239585_3_alg».proof.Proof.KernelBody

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.ValueIdx

variable {F : FTy → Type} [FloatOps F]

/-! ## The pieces the run found -/

/-- The run's pieces for the output block are the loop's, over the whole mask block and the three input blocks. -/
theorem run_pieces (c : Dev nD) (i : grid0.Coords) (arg2 : Memref sig .tc .vmem S1x8x256x64 .f32) (harg2 : arg2.IsWhole) (arg3 : Memref sig .tc .vmem S1x8x2048x64 .f32) (harg3 : arg3.IsWhole) (arg4 : Memref sig .tc .vmem S1x8x2048x64 .f32) (harg4 : arg4.IsWhole) (arg5 : Memref sig .tc .vmem S1x1x256x2048 .i32) (harg5 : arg5.IsWhole) (arg6 : Memref sig .tc .vmem S1x8x256x64 .f32) (harg6 : arg6.IsWhole)
    (x0 : Vec F S1x8x256x64 .f32) (x1 : Vec F S1x8x2048x64 .f32) (x2 : Vec F S1x8x2048x64 .f32) (x3 : Vec F S1x1x256x2048 .i32) :
    (kernelRun0_A (F := F) c i arg2 harg2 arg3 harg3 arg4 harg4 arg5 harg5 arg6 harg6 x0 x1 x2 x3).1
      = pb_k0_t1 Variants.none c none i arg2 harg2 arg3 harg3 arg4 harg4 arg5 harg5 arg6 harg6
          (View.readAt (Elt F) arg5.view
            (Rect.unit (s := S1x1x256x2048) ![0, 0, 0, 0] S1x1x256x2048.size inb_S1x1x256x2048_S1x1x256x2048_0_0_0_0).toLoadRect
            (harg5.unread x3))
          (harg2.unread x0) (harg3.unread x1) (harg4.unread x2) k0_t1_loop.trips := by
  unfold kernelRun0_A
  rfl

/-- Trip `k` leaves ONE piece: at head `k` of the output block, the payload of the mask block and of head `k` of
    the three input blocks. -/
theorem trip_piece (𝒱 : Variants) (bd : Option 𝒱.V) (c : Dev nD) (i : grid0.Coords) (arg2 : Memref sig .tc .vmem S1x8x256x64 .f32) (harg2 : arg2.IsWhole) (arg3 : Memref sig .tc .vmem S1x8x2048x64 .f32) (harg3 : arg3.IsWhole) (arg4 : Memref sig .tc .vmem S1x8x2048x64 .f32) (harg4 : arg4.IsWhole) (arg5 : Memref sig .tc .vmem S1x1x256x2048 .i32) (harg5 : arg5.IsWhole) (arg6 : Memref sig .tc .vmem S1x8x256x64 .f32) (harg6 : arg6.IsWhole) (v0 : Vec F S1x1x256x2048 .i32)
    (X2 : BufTy.Contents (Elt F) arg2.view.ty) (X3 : BufTy.Contents (Elt F) arg3.view.ty) (X4 : BufTy.Contents (Elt F) arg4.view.ty)
    (k : Fin k0_t1_loop.trips) :
    tripL_k0_t1 (F := F) 𝒱 c bd i arg2 harg2 arg3 harg3 arg4 harg4 arg5 harg5 arg6 harg6 v0 X2 X3 X4 k
      = [⟨Rect.unit (s := S1x8x256x64) (k0_off1 k) S1x1x256x64.size (k0_off1_inb k),
          k0_pay1 v0
            (View.readAt (Elt F) arg2.view (Rect.unit (s := S1x8x256x64) (k0_off1 k) S1x1x256x64.size (k0_off1_inb k)).toLoadRect X2)
            (View.readAt (Elt F) arg3.view (Rect.unit (s := S1x8x2048x64) (k0_off2 k) S1x1x2048x64.size (k0_off2_inb k)).toLoadRect X3)
            (View.readAt (Elt F) arg4.view (Rect.unit (s := S1x8x2048x64) (k0_off2 k) S1x1x2048x64.size (k0_off2_inb k)).toLoadRect X4)⟩] := by
  unfold tripL_k0_t1 trip_k0_t1
  rfl

/-- What holds of every trip's pieces holds of every piece of the loop. -/
theorem pb_forall (𝒱 : Variants) (bd : Option 𝒱.V) (c : Dev nD) (i : grid0.Coords) (arg2 : Memref sig .tc .vmem S1x8x256x64 .f32) (harg2 : arg2.IsWhole) (arg3 : Memref sig .tc .vmem S1x8x2048x64 .f32) (harg3 : arg3.IsWhole) (arg4 : Memref sig .tc .vmem S1x8x2048x64 .f32) (harg4 : arg4.IsWhole) (arg5 : Memref sig .tc .vmem S1x1x256x2048 .i32) (harg5 : arg5.IsWhole) (arg6 : Memref sig .tc .vmem S1x8x256x64 .f32) (harg6 : arg6.IsWhole) (v0 : Vec F S1x1x256x2048 .i32)
    (X2 : BufTy.Contents (Elt F) arg2.view.ty) (X3 : BufTy.Contents (Elt F) arg3.view.ty) (X4 : BufTy.Contents (Elt F) arg4.view.ty)
    (P : View.Piece (Elt F) S1x8x256x64 .f32 → Prop)
    (hP : ∀ k : Fin k0_t1_loop.trips, ∀ p ∈ tripL_k0_t1 (F := F) 𝒱 c bd i arg2 harg2 arg3 harg3 arg4 harg4 arg5 harg5 arg6 harg6 v0 X2 X3 X4 k, P p) :
    ∀ n : ℕ, ∀ p ∈ pb_k0_t1 (F := F) 𝒱 c bd i arg2 harg2 arg3 harg3 arg4 harg4 arg5 harg5 arg6 harg6 v0 X2 X3 X4 n, P p
  | 0, p, hp => by rw [pb_k0_t1.eq_1] at hp; exact absurd hp List.not_mem_nil
  | n + 1, p, hp => by
    rw [pb_k0_t1.eq_2] at hp
    unfold pb_k0_t1Step at hp
    split at hp
    · rename_i h
      rcases List.mem_append.mp hp with h' | h'
      · exact hP ⟨n, h⟩ p h'
      · exact pb_forall 𝒱 bd c i arg2 harg2 arg3 harg3 arg4 harg4 arg5 harg5 arg6 harg6 v0 X2 X3 X4 P hP n p h'
    · exact pb_forall 𝒱 bd c i arg2 harg2 arg3 harg3 arg4 harg4 arg5 harg5 arg6 harg6 v0 X2 X3 X4 P hP n p hp

/-! ## The loads, read back -/

/-- A load from a whole staging buffer holding `X` reads `X` at the rectangle's indices. -/
theorem load_apply {e : EltTy} {S : Shape} (M : Memref sig .tc .vmem S e) (hM : M.IsWhole) (X : S.Idx → Elt F e)
    (R : LoadRect S) (x : R.shape.Idx) : View.readAt (Elt F) M.view R (hM.unread X) x = X (R.idx x) := by
  rw [View.readAt_apply, hM.read_unread]

/-- There are 8 trips. -/
theorem trip_lt (k : Fin k0_t1_loop.trips) : k.val < 8 := Nat.lt_of_lt_of_le k.isLt k0_t1_abs.2.1

/-- Entry `(0, 0, r, j)` of trip `k`'s query (or output) rectangle is entry `(0, k, r, j)` of the block. -/
theorem idx_q (k : Fin k0_t1_loop.trips) (r : Fin 256) (j : Fin 64) :
    (Rect.unit (s := S1x8x256x64) (k0_off1 k) S1x1x256x64.size (k0_off1_inb k)).toLoadRect.idx (ix4 (0 : Fin 1) (0 : Fin 1) r j)
      = ix4 (0 : Fin 1) (⟨k.val, trip_lt k⟩ : Fin 8) r j := by
  funext a; apply Fin.ext
  show k0_off1 k a + 1 * (ix4 (0 : Fin 1) (0 : Fin 1) r j a).val = _
  rw [k0_off1_eq]
  match a with
  | ⟨0, _⟩ => rfl
  | ⟨1, _⟩ => show k.val + 1 * 0 = k.val; omega
  | ⟨2, _⟩ => show 0 + 1 * r.val = r.val; omega
  | ⟨3, _⟩ => show 0 + 1 * j.val = j.val; omega

/-- Entry `(0, 0, k', j)` of trip `k`'s key (or value) rectangle is entry `(0, k, k', j)` of the block. -/
theorem idx_kv (k : Fin k0_t1_loop.trips) (k' : Fin 2048) (j : Fin 64) :
    (Rect.unit (s := S1x8x2048x64) (k0_off2 k) S1x1x2048x64.size (k0_off2_inb k)).toLoadRect.idx (ix4 (0 : Fin 1) (0 : Fin 1) k' j)
      = ix4 (0 : Fin 1) (⟨k.val, trip_lt k⟩ : Fin 8) k' j := by
  funext a; apply Fin.ext
  show k0_off2 k a + 1 * (ix4 (0 : Fin 1) (0 : Fin 1) k' j a).val = _
  rw [k0_off2_eq]
  match a with
  | ⟨0, _⟩ => rfl
  | ⟨1, _⟩ => show k.val + 1 * 0 = k.val; omega
  | ⟨2, _⟩ => show 0 + 1 * k'.val = k'.val; omega
  | ⟨3, _⟩ => show 0 + 1 * j.val = j.val; omega

/-- The mask block is loaded whole. -/
theorem idx_mask (r : Fin 256) (k' : Fin 2048) :
    (Rect.unit (s := S1x1x256x2048) ![0, 0, 0, 0] S1x1x256x2048.size inb_S1x1x256x2048_S1x1x256x2048_0_0_0_0).toLoadRect.idx
        (ix4 (0 : Fin 1) (0 : Fin 1) r k')
      = ix4 (0 : Fin 1) (0 : Fin 1) r k' := by
  funext a; apply Fin.ext
  show (![0, 0, 0, 0] : Fin 4 → ℕ) a + 1 * (ix4 (0 : Fin 1) (0 : Fin 1) r k' a).val = _
  match a with
  | ⟨0, _⟩ => rfl
  | ⟨1, _⟩ => rfl
  | ⟨2, _⟩ => show 0 + 1 * r.val = r.val; omega
  | ⟨3, _⟩ => show 0 + 1 * k'.val = k'.val; omega

/-- Where entry `x` of trip `k`'s store sits in the output block: head `k`, the entry's row and column. -/
theorem emb_trip (k : Fin k0_t1_loop.trips) (r : Fin 256) (d : Fin 64) :
    (Rect.unit (s := S1x8x256x64) (k0_off1 k) S1x1x256x64.size (k0_off1_inb k)).emb (ix4 (0 : Fin 1) (0 : Fin 1) r d)
      = ix4 (0 : Fin 1) (⟨k.val, trip_lt k⟩ : Fin 8) r d := idx_q k r d

/-! ## The output block, entry by entry -/

/-- What the body leaves at entry `(0, h, r, d)` of the output block, from the query block `x0`, the key and value
    blocks `x1`, `x2` and the mask block `x3`: head `h`'s attention of query row `r` against value column `d`. -/
def blockFn (x0 : Vec Ideal S1x8x256x64 .f32) (x1 x2 : Vec Ideal S1x8x2048x64 .f32) (x3 : Vec Ideal S1x1x256x2048 .i32)
    (h : Fin 8) (r : Fin 256) (d : Fin 64) : EReal :=
  Attn.attend (fun k : Fin 2048 => IntOp.cmpi .ne (x3 (ix4 (0 : Fin 1) (0 : Fin 1) r k)) 0#32)
    (fun k : Fin 2048 => ∑ j : Fin 64, (x0 (ix4 (0 : Fin 1) h r j) * Ideal.ofBits .f32 0x3E000000#32) * x1 (ix4 (0 : Fin 1) h k j))
    (fun k : Fin 2048 => x2 (ix4 (0 : Fin 1) h k d))

/-- The same as a function of the block's index. -/
def blockArr (x0 : Vec Ideal S1x8x256x64 .f32) (x1 x2 : Vec Ideal S1x8x2048x64 .f32) (x3 : Vec Ideal S1x1x256x2048 .i32) :
    S1x8x256x64.Idx → Elt Ideal .f32 := fun y => blockFn x0 x1 x2 x3 (y 1) (y 2) (y 3)

/-- Trip `k`'s piece holds `blockArr` where it sits. -/
theorem trip_ok (c : Dev nD) (i : grid0.Coords) (arg2 : Memref sig .tc .vmem S1x8x256x64 .f32) (harg2 : arg2.IsWhole) (arg3 : Memref sig .tc .vmem S1x8x2048x64 .f32) (harg3 : arg3.IsWhole) (arg4 : Memref sig .tc .vmem S1x8x2048x64 .f32) (harg4 : arg4.IsWhole) (arg5 : Memref sig .tc .vmem S1x1x256x2048 .i32) (harg5 : arg5.IsWhole) (arg6 : Memref sig .tc .vmem S1x8x256x64 .f32) (harg6 : arg6.IsWhole)
    (x0 : Vec Ideal S1x8x256x64 .f32) (x1 x2 : Vec Ideal S1x8x2048x64 .f32) (x3 : Vec Ideal S1x1x256x2048 .i32)
    (k : Fin k0_t1_loop.trips) :
    ∀ p ∈ tripL_k0_t1 (F := Ideal) Variants.none c none i arg2 harg2 arg3 harg3 arg4 harg4 arg5 harg5 arg6 harg6
        (View.readAt (Elt Ideal) arg5.view
          (Rect.unit (s := S1x1x256x2048) ![0, 0, 0, 0] S1x1x256x2048.size inb_S1x1x256x2048_S1x1x256x2048_0_0_0_0).toLoadRect
          (harg5.unread x3))
        (harg2.unread x0) (harg3.unread x1) (harg4.unread x2) k,
      ∀ x : p.1.shape.Idx, p.2 x = blockArr x0 x1 x2 x3 (p.1.emb x) := by
  intro p hp
  rw [trip_piece, List.mem_singleton] at hp
  subst hp
  intro (x : S1x1x256x64.Idx)
  obtain ⟨r, d, rfl⟩ : ∃ (r : Fin 256) (d : Fin 64), x = ix4 (0 : Fin 1) (0 : Fin 1) r d :=
    ⟨x 2, x 3, funext fun a => Fin.ext (by
      match a with
      | ⟨0, _⟩ => have h0 : (x 0).val < 1 := (x 0).isLt; show (x 0).val = 0; omega
      | ⟨1, _⟩ => have h1 : (x 1).val < 1 := (x 1).isLt; show (x 1).val = 0; omega
      | ⟨2, _⟩ => rfl
      | ⟨3, _⟩ => rfl)⟩
  show k0_pay1 (F := Ideal) _ _ _ _ (ix4 (0 : Fin 1) (0 : Fin 1) r d) = blockArr x0 x1 x2 x3 _
  rw [emb_trip, Body.pay_apply]
  show _ = blockFn x0 x1 x2 x3 (⟨k.val, trip_lt k⟩ : Fin 8) r d
  unfold blockFn
  refine Body.attend_congr (fun k' => ?_) (fun k' => ?_) (fun k' => ?_)
  · rw [load_apply, idx_mask]
  · refine Finset.sum_congr rfl fun j _ => ?_
    rw [load_apply, load_apply, idx_q, idx_kv]
  · rw [load_apply, idx_kv]

/-- THE OUTPUT BLOCK after the body, at any index: `blockArr` of the four input blocks. -/
theorem out_block_apply (c : Dev nD) (i : grid0.Coords) (arg2 : Memref sig .tc .vmem S1x8x256x64 .f32) (harg2 : arg2.IsWhole) (arg3 : Memref sig .tc .vmem S1x8x2048x64 .f32) (harg3 : arg3.IsWhole) (arg4 : Memref sig .tc .vmem S1x8x2048x64 .f32) (harg4 : arg4.IsWhole) (arg5 : Memref sig .tc .vmem S1x1x256x2048 .i32) (harg5 : arg5.IsWhole) (arg6 : Memref sig .tc .vmem S1x8x256x64 .f32) (harg6 : arg6.IsWhole)
    (x0 : Vec Ideal S1x8x256x64 .f32) (x1 x2 : Vec Ideal S1x8x2048x64 .f32) (x3 : Vec Ideal S1x1x256x2048 .i32)
    (y : S1x8x256x64.Idx) :
    out0_A_4 (F := Ideal) c i arg2 harg2 arg3 harg3 arg4 harg4 arg5 harg5 arg6 harg6 x0 x1 x2 x3 y = blockArr x0 x1 x2 x3 y := by
  unfold out0_A_4
  rw [View.read_writes_apply_eq_canon _ _ y _ (cover0_A_4 c i arg2 harg2 arg3 harg3 arg4 harg4 arg5 harg5 arg6 harg6 x0 x1 x2 x3 y)]
  refine View.canon_apply_of_pieces (blockArr x0 x1 x2 x3) _ ?_ y (cover0_A_4 c i arg2 harg2 arg3 harg3 arg4 harg4 arg5 harg5 arg6 harg6 x0 x1 x2 x3 y)
  rw [run_pieces]
  exact pb_forall Variants.none none c i arg2 harg2 arg3 harg3 arg4 harg4 arg5 harg5 arg6 harg6 _ _ _ _ _
    (trip_ok c i arg2 harg2 arg3 harg3 arg4 harg4 arg5 harg5 arg6 harg6 x0 x1 x2 x3) _

end Cert.KernelIdeal.Pieces

end
-- ==== Proof.KernelValue.lean ====
/-
  The kernel's result array, entry by entry: `Attn.attention` of the four argument arrays.

  Grid point `(b, qi)` works on batch `b`: its query and output blocks are rows `256·qi … 256·qi + 255` of every
  head, its key and value blocks all of batch `b`, its mask block the same rows of batch `b`'s one mask.  So entry
  `(0, h, r, d)` of the output block (head `h`'s attention of the block's query row `r`, from the loop's pieces) is
  entry `(b, h, 256·qi + r, d)` of `Attn.attention` — except that the kernel scales each query entry by one eighth
  before the score's dot product and the specification scales the dot product: the scale law.  The 32 points'
  output blocks tile the array (array entry `(b, h, q, d)` lies in the block of point `(b, q / 256)`), so the array
  ends holding `Attn.attention` everywhere.
-/
import proofs.«406995_j42125039239585_3_alg».proof.Proof.Gen.KernelIdeal.Value
import proofs.«406995_j42125039239585_3_alg».proof.Proof.KernelPieces

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The four argument arrays as the region finds them, at their literal types. -/
abbrev Qa (c : Dev nD) : Vec Ideal S4x8x2048x64 .f32 := V m c main_arg0
abbrev Ka (c : Dev nD) : Vec Ideal S4x8x2048x64 .f32 := V m c main_arg1
abbrev Va (c : Dev nD) : Vec Ideal S4x8x2048x64 .f32 := V m c main_arg2
abbrev Ma (c : Dev nD) : Vec Ideal S4x1x2048x2048 .i32 := V m c main_arg3

/-- The result as one function of the argument arrays. -/
def G (c : Dev nD) : S4x8x2048x64.Idx → Elt Ideal .f32 := fun i =>
  Attn.attention (Qa m c) (Ka m c) (Va m c) (Ma m c) (i 0) (i 1) (i 2) (i 3)

/-- The four input blocks at a point, at their literal types. -/
abbrev qblk (c : Dev nD) (t : Fin cfg0.N) : Vec Ideal S1x8x256x64 .f32 := iblk m c 0 t
abbrev kblk (c : Dev nD) (t : Fin cfg0.N) : Vec Ideal S1x8x2048x64 .f32 := iblk m c 1 t
abbrev vblk (c : Dev nD) (t : Fin cfg0.N) : Vec Ideal S1x8x2048x64 .f32 := iblk m c 2 t
abbrev mblk (c : Dev nD) (t : Fin cfg0.N) : Vec Ideal S1x1x256x2048 .i32 := iblk m c 3 t

/-- The printed index maps, decided once over the 32 points: every window is at the output's batch; queries and
    mask at the output's row block; keys and values whole; nothing else moves. -/
theorem idx_facts : ∀ t : Fin cfg0.N,
    (win0_0.index t (0 : Fin 4) = win0_4.index t (0 : Fin 4) ∧ win0_0.index t (1 : Fin 4) = 0
      ∧ win0_0.index t (2 : Fin 4) = win0_4.index t (2 : Fin 4) ∧ win0_0.index t (3 : Fin 4) = 0)
    ∧ (win0_1.index t (0 : Fin 4) = win0_4.index t (0 : Fin 4) ∧ win0_1.index t (1 : Fin 4) = 0
      ∧ win0_1.index t (2 : Fin 4) = 0 ∧ win0_1.index t (3 : Fin 4) = 0)
    ∧ (win0_2.index t (0 : Fin 4) = win0_4.index t (0 : Fin 4) ∧ win0_2.index t (1 : Fin 4) = 0
      ∧ win0_2.index t (2 : Fin 4) = 0 ∧ win0_2.index t (3 : Fin 4) = 0)
    ∧ (win0_3.index t (0 : Fin 4) = win0_4.index t (0 : Fin 4) ∧ win0_3.index t (1 : Fin 4) = 0
      ∧ win0_3.index t (2 : Fin 4) = win0_4.index t (2 : Fin 4) ∧ win0_3.index t (3 : Fin 4) = 0)
    ∧ (win0_4.index t (0 : Fin 4) ≤ 3 ∧ win0_4.index t (1 : Fin 4) = 0
      ∧ win0_4.index t (2 : Fin 4) ≤ 7 ∧ win0_4.index t (3 : Fin 4) = 0) :=
  (by decide +kernel : ∀ t : Fin grid0.N, _)

/-- Every (batch, row block) is some point's. -/
theorem idx_onto : ∀ (q0 : Fin 4) (q2 : Fin 8), ∃ t : Fin cfg0.N, win0_4.index t = ![q0.val, 0, q2.val, 0] :=
  (by decide +kernel : ∀ (q0 : Fin 4) (q2 : Fin 8), ∃ t : Fin grid0.N, win0_4.index t = ![q0.val, 0, q2.val, 0])

/-- WHAT POINT `t` WRITES BACK is block `t` of `G`. -/
theorem flushed_eq (c : Dev nD) (t : Fin cfg0.N) :
    (dats m 0 c).flushed 4 t = ((cfg0.win 4).blk t).view.read (Elt Ideal) (G m c) := by
  rw [Value.flushed4_A]
  obtain ⟨⟨a0, a1, a2, a3⟩, ⟨b0, b1, b2, b3⟩, ⟨c0, c1, c2, c3⟩, ⟨d0, d1, d2, d3⟩, ⟨e0, e1, e2, e3⟩⟩ := idx_facts t
  funext y
  show out0_A_4 (F := Ideal) c (grid0.coords t) (ms0_0 t) (hs0_0 t) (ms0_1 t) (hs0_1 t) (ms0_2 t) (hs0_2 t) (ms0_3 t) (hs0_3 t)
      (ms0_4 t) (hs0_4 t) (qblk m c t) (kblk m c t) (vblk m c t) (mblk m c t) y = G m c (((cfg0.win 4).blk t).view.emb y)
  refine (Pieces.out_block_apply c (grid0.coords t) (ms0_0 t) (hs0_0 t) (ms0_1 t) (hs0_1 t) (ms0_2 t) (hs0_2 t) (ms0_3 t) (hs0_3 t)
      (ms0_4 t) (hs0_4 t) (qblk m c t) (kblk m c t) (vblk m c t) (mblk m c t) y).trans ?_
  have hy0 : (y 0).val < 1 := (y 0).isLt
  have hy1 : (y 1).val < 8 := (y 1).isLt
  have hy2 : (y 2).val < 256 := (y 2).isLt
  have hy3 : (y 3).val < 64 := (y 3).isLt
  -- where the output entry sits in the array
  have E0 : ((((cfg0.win 4).blk t).view.emb y) 0).val = win0_4.index t (0 : Fin 4) := by
    show win0_4.index t (0 : Fin 4) * 1 + 1 * (y 0).val = _; omega
  have E1 : ((((cfg0.win 4).blk t).view.emb y) 1).val = (y 1).val := by
    show win0_4.index t (1 : Fin 4) * 8 + 1 * (y 1).val = _; omega
  have E2 : ((((cfg0.win 4).blk t).view.emb y) 2).val = win0_4.index t (2 : Fin 4) * 256 + (y 2).val := by
    show win0_4.index t (2 : Fin 4) * 256 + 1 * (y 2).val = _; omega
  have E3 : ((((cfg0.win 4).blk t).view.emb y) 3).val = (y 3).val := by
    show win0_4.index t (3 : Fin 4) * 64 + 1 * (y 3).val = _; omega
  show Pieces.blockFn (qblk m c t) (kblk m c t) (vblk m c t) (mblk m c t) (y 1) (y 2) (y 3)
    = Attn.attention (Qa m c) (Ka m c) (Va m c) (Ma m c)
        ((((cfg0.win 4).blk t).view.emb y) 0) ((((cfg0.win 4).blk t).view.emb y) 1)
        ((((cfg0.win 4).blk t).view.emb y) 2) ((((cfg0.win 4).blk t).view.emb y) 3)
  unfold Pieces.blockFn Attn.attention
  refine Body.attend_congr (fun k => ?_) (fun k => ?_) (fun k => ?_)
  · -- the mask row
    show IntOp.cmpi .ne (Ma m c (((cfg0.win 3).blk t).view.emb (ix4 (0 : Fin 1) (0 : Fin 1) (y 2) k))) 0#32 = _
    refine congrArg (fun z => IntOp.cmpi .ne (Ma m c z) 0#32) (funext fun a => Fin.ext ?_)
    match a with
    | ⟨0, _⟩ => show win0_3.index t (0 : Fin 4) * 1 + 1 * 0 = _; rw [E0]; omega
    | ⟨1, _⟩ => show win0_3.index t (1 : Fin 4) * 1 + 1 * 0 = 0; omega
    | ⟨2, _⟩ => show win0_3.index t (2 : Fin 4) * 256 + 1 * (y 2).val = _; rw [E2]; omega
    | ⟨3, _⟩ => show win0_3.index t (3 : Fin 4) * 2048 + 1 * k.val = k.val; omega
  · -- the score: the scale law, then queries and keys where the output's index says
    rw [Attn.score_scale]
    refine congrArg (· * Ideal.ofBits .f32 0x3E000000#32) (Finset.sum_congr rfl fun j _ => ?_)
    show Qa m c (((cfg0.win 0).blk t).view.emb (ix4 (0 : Fin 1) (y 1) (y 2) j))
        * Ka m c (((cfg0.win 1).blk t).view.emb (ix4 (0 : Fin 1) (y 1) k j)) = _
    refine congrArg₂ (fun z z' => Qa m c z * Ka m c z') (funext fun a => Fin.ext ?_) (funext fun a => Fin.ext ?_)
    · match a with
      | ⟨0, _⟩ => show win0_0.index t (0 : Fin 4) * 1 + 1 * 0 = _; rw [E0]; omega
      | ⟨1, _⟩ => show win0_0.index t (1 : Fin 4) * 8 + 1 * (y 1).val = _; rw [E1]; omega
      | ⟨2, _⟩ => show win0_0.index t (2 : Fin 4) * 256 + 1 * (y 2).val = _; rw [E2]; omega
      | ⟨3, _⟩ => show win0_0.index t (3 : Fin 4) * 64 + 1 * j.val = j.val; omega
    · match a with
      | ⟨0, _⟩ => show win0_1.index t (0 : Fin 4) * 1 + 1 * 0 = _; rw [E0]; omega
      | ⟨1, _⟩ => show win0_1.index t (1 : Fin 4) * 8 + 1 * (y 1).val = _; rw [E1]; omega
      | ⟨2, _⟩ => show win0_1.index t (2 : Fin 4) * 2048 + 1 * k.val = k.val; omega
      | ⟨3, _⟩ => show win0_1.index t (3 : Fin 4) * 64 + 1 * j.val = j.val; omega
  · -- the value column
    show Va m c (((cfg0.win 2).blk t).view.emb (ix4 (0 : Fin 1) (y 1) k (y 3))) = _
    refine congrArg (Va m c) (funext fun a => Fin.ext ?_)
    match a with
    | ⟨0, _⟩ => show win0_2.index t (0 : Fin 4) * 1 + 1 * 0 = _; rw [E0]; omega
    | ⟨1, _⟩ => show win0_2.index t (1 : Fin 4) * 8 + 1 * (y 1).val = _; rw [E1]; omega
    | ⟨2, _⟩ => show win0_2.index t (2 : Fin 4) * 2048 + 1 * k.val = k.val; omega
    | ⟨3, _⟩ => show win0_2.index t (3 : Fin 4) * 64 + 1 * (y 3).val = _; rw [E3]; omega

/-- An index of the array is in point `t`'s output block iff each coordinate is in the block's range on its axis. -/
theorem mem_blk (t : Fin cfg0.N) (i : S4x8x2048x64.Idx) :
    i ∈ ((cfg0.win 4).blk t).view.set
      ↔ ∀ a : Fin 4, win0_4.index t a * S1x8x256x64.size a ≤ (i a).val ∧ (i a).val < win0_4.index t a * S1x8x256x64.size a + S1x8x256x64.size a := by
  show i ∈ ((View.whole main_v0).slice (win0_4.rect t)).set ↔ _
  rw [View.set_slice_whole, Rect.mem_set_unit]
  exact Iff.rfl

/-- The output blocks tile the array: entry `(b, h, q, d)` is in the block of the point at batch `b`, row block `q / 256`. -/
theorem cover (i : S4x8x2048x64.Idx) : ∃ t : Fin cfg0.N, (cfg0.win 4).flush t = true ∧ i ∈ ((cfg0.win 4).blk t).view.set := by
  have hi0 : (i 0).val < 4 := (i 0).isLt
  have hi1 : (i 1).val < 8 := (i 1).isLt
  have hi2 : (i 2).val < 2048 := (i 2).isLt
  have hi3 : (i 3).val < 64 := (i 3).isLt
  obtain ⟨t, ht⟩ := idx_onto ⟨(i 0).val, hi0⟩ ⟨(i 2).val / 256, by omega⟩
  have q0 : win0_4.index t (0 : Fin 4) = (i 0).val := congrFun ht 0
  have q1 : win0_4.index t (1 : Fin 4) = 0 := congrFun ht 1
  have q2 : win0_4.index t (2 : Fin 4) = (i 2).val / 256 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 8 ≤ (i 1).val ∧ (i 1).val < win0_4.index t (1 : Fin 4) * 8 + 8; omega
  | ⟨2, _⟩ => show win0_4.index t (2 : Fin 4) * 256 ≤ (i 2).val ∧ (i 2).val < win0_4.index t (2 : Fin 4) * 256 + 256; omega
  | ⟨3, _⟩ => show win0_4.index t (3 : Fin 4) * 64 ≤ (i 3).val ∧ (i 3).val < win0_4.index t (3 : Fin 4) * 64 + 64; omega

/-- THE ARRAY after the run: `G` everywhere. -/
theorem final (c : Dev nD) : (dats m 0 c).arrAt 4 cfg0.N = G m c :=
  (dats m 0 c).arrAt_eq_of_cover 4 (G m c) (fun t _ => flushed_eq m c t) cover

/-- The kernel's run: it terminates with its result at `Attn.attention` of the argument arrays, the arguments kept. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefValue.lean ====
/-
  What the reference computes, entry by entry: `Attn.attention` of its four arguments.

  Its operations are read one at a time at an index.  On row `(b, h, q)`: the scores are the dot products of the
  query row with the key rows, times one eighth; the filled row is `Attn.maskRow` of them under the mask row of batch
  `b` (broadcast over the heads); the maximum is the fold of `max` from `-∞` over the row, taken once more against
  `-∞`; the exponentials, their sum from `0`, the quotient and the zero fill are `Attn.weight`; the last dot
  product, over the keys, is `Attn.attend`.
-/
import proofs.«406995_j42125039239585_3_alg».proof.Proof.Gen.ReferenceIdeal.Read
import proofs.«406995_j42125039239585_3_alg».proof.Proof.Softmax
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x0 x1 x2 : (⟨S4x8x2048x64, .f32⟩ : BufTy).Contents (Elt Ideal)) (x3 : (⟨S4x1x2048x2048, .i32⟩ : BufTy).Contents (Elt Ideal))
variable (b : Fin 4) (h : Fin 8) (q : Fin 2048)

/-- Row `q` of batch `b`'s mask, as bits: a nonzero word masks. -/
def mk : Fin 2048 → BitVec 1 := fun k => IntOp.cmpi .ne (x3 (ix4 b (0 : Fin 1) q k)) 0#32
/-- Row `(b, h, q)` of the scores. -/
def sc : Fin 2048 → EReal :=
  fun k => (∑ j : Fin 64, x0 (ix4 b h q j) * x1 (ix4 b h k j)) * Ideal.ofBits .f32 0x3E000000#32

/-! ## Where each operation reads its operand -/

theorem lidx_v0 (k : Fin 2048) (j : Fin 64) : lidx_main_v0 (ix4 b h q k) j = ix4 b h q j :=
  funext fun a => Fin.ext (by match a with | ⟨0, _⟩ => rfl | ⟨1, _⟩ => rfl | ⟨2, _⟩ => rfl | ⟨3, _⟩ => rfl)
theorem ridx_v0 (k : Fin 2048) (j : Fin 64) : ridx_main_v0 (ix4 b h q k) j = ix4 b h k j :=
  funext fun a => Fin.ext (by match a with | ⟨0, _⟩ => rfl | ⟨1, _⟩ => rfl | ⟨2, _⟩ => rfl | ⟨3, _⟩ => rfl)
theorem idx_call0 (k : Fin 2048) : idx_main_call0_v0 (ix4 b h q k) = ix4 b (0 : Fin 1) q k :=
  funext fun a => Fin.ext (by match a with | ⟨0, _⟩ => rfl | ⟨1, _⟩ => rfl | ⟨2, _⟩ => rfl | ⟨3, _⟩ => rfl)
theorem idx_call1 (k : Fin 2048) : idx_main_call1_v0 (ix4 b h q k) = ix4 b (0 : Fin 1) q k :=
  funext fun a => Fin.ext (by match a with | ⟨0, _⟩ => rfl | ⟨1, _⟩ => rfl | ⟨2, _⟩ => rfl | ⟨3, _⟩ => rfl)
theorem idx_v11 (k : Fin 2048) : idx_main_v10 (idx_main_v11 (ix4 b h q k)) = ix3 b h q :=
  funext fun a => Fin.ext (by match a with | ⟨0, _⟩ => rfl | ⟨1, _⟩ => rfl | ⟨2, _⟩ => rfl)
theorem idx_v16 (k : Fin 2048) : idx_main_v15 (idx_main_v16 (ix4 b h q k)) = ix3 b h q :=
  funext fun a => Fin.ext (by match a with | ⟨0, _⟩ => rfl | ⟨1, _⟩ => rfl | ⟨2, _⟩ => rfl)
theorem idx_v14 (k : Fin 2048) : idx_main_v14 (ix3 b h q) k = ix4 b h q k :=
  funext fun a => Fin.ext (by match a with | ⟨0, _⟩ => rfl | ⟨1, _⟩ => rfl | ⟨2, _⟩ => rfl | ⟨3, _⟩ => rfl)
theorem lidx_v19 (d : Fin 64) (k : Fin 2048) : lidx_main_v19 (ix4 b h q d) k = ix4 b h q k :=
  funext fun a => Fin.ext (by match a with | ⟨0, _⟩ => rfl | ⟨1, _⟩ => rfl | ⟨2, _⟩ => rfl | ⟨3, _⟩ => rfl)
theorem ridx_v19 (d : Fin 64) (k : Fin 2048) : ridx_main_v19 (ix4 b h q d) k = ix4 b h k d :=
  funext fun a => Fin.ext (by match a with | ⟨0, _⟩ => rfl | ⟨1, _⟩ => rfl | ⟨2, _⟩ => rfl | ⟨3, _⟩ => rfl)

/-- The max-reduce's shape fact in the form that names the put-back index. -/
theorem reduces_d3 : S4x8x2048x2048.Reduces [3] S4x8x2048 := by decide
theorem lift_d3 (k : Fin 2048) : reduces_d3.lift (ix3 b h q) k = ix4 b h q k :=
  funext fun a => Fin.ext (by match a with | ⟨0, _⟩ => rfl | ⟨1, _⟩ => rfl | ⟨2, _⟩ => rfl | ⟨3, _⟩ => rfl)

/-! ## The row, stage by stage -/

/-- The filled scores on the row. -/
theorem v6_row (k : Fin 2048) :
    val_main_v6 (F := Ideal) x0 x1 x3 (ix4 b h q k) = Attn.maskRow (mk x3 b q) (sc x0 x1 b h q) k := by
  rw [val_main_v6_apply, val_main_call0_v0_apply, val_main_v5_apply, val_main_v4_apply, val_main_v3_apply, val_main_c_apply,
    val_main_call0_v1_apply, val_main_cst_0_apply, val_main_v2_apply, val_main_v0_apply, val_main_v1_apply, val_main_cst_apply,
    idx_call0]
  simp only [lidx_v0, ridx_v0]
  rfl

/-- The row's maximum (the reduction, then the maximum against `-∞`). -/
theorem v9_row : val_main_v9 (F := Ideal) x0 x1 x3 (ix3 b h q) = Attn.rowMax (Attn.maskRow (mk x3 b q) (sc x0 x1 b h q)) := by
  rw [val_main_v9_apply, val_main_v8_apply, val_main_cst_2_apply]
  unfold val_main_v7
  rw [Host.reduce_eq_fold_single FloatOps.maximumf _ _ reducesTo_S4x8x2048x2048_S4x8x2048_d3 reduces_d3 h_S_]
  have e : (val_main_v6 (F := Ideal) x0 x1 x3 ∘ reduces_d3.lift (ix3 b h q)) = Attn.maskRow (mk x3 b q) (sc x0 x1 b h q) :=
    funext fun (k : Fin 2048) =>
      (congrArg (val_main_v6 (F := Ideal) x0 x1 x3) (lift_d3 b h q k)).trans (v6_row x0 x1 x3 b h q k)
  rw [e]
  exact Attn.max_negInf_rowMax _

/-- The exponentials on the row. -/
theorem v13_row (k : Fin 2048) :
    val_main_v13 (F := Ideal) x0 x1 x3 (ix4 b h q k) = Attn.expRow (Attn.maskRow (mk x3 b q) (sc x0 x1 b h q)) k := by
  rw [val_main_v13_apply, val_main_v12_apply, val_main_v11_apply, val_main_v10_apply, idx_v11, v9_row, v6_row]
  rfl

/-- The weights on the row. -/
theorem v18_row (k : Fin 2048) :
    val_main_v18 (F := Ideal) x0 x1 x3 (ix4 b h q k) = Attn.weight (mk x3 b q) (sc x0 x1 b h q) k := by
  rw [val_main_v18_apply, val_main_call1_v0_apply, val_main_v5_apply, val_main_v4_apply, val_main_v3_apply, val_main_c_apply,
    val_main_call1_v1_apply, val_main_cst_4_apply, val_main_v17_apply, val_main_v16_apply, val_main_v15_apply, idx_v16,
    val_main_v14_apply, val_main_cst_3_apply, idx_call1, v13_row]
  simp only [idx_v14, v13_row]
  show Scalar.select _ _ (Ideal.div _ (Ideal.ofBits .f32 0x00000000#32 + _)) = _
  rw [Ideal.ofBits_zero_f32, zero_add]
  rfl

/-- ENTRY `(b, h, q, d)` OF THE REFERENCE'S RESULT. -/
theorem v19_apply (d : Fin 64) :
    val_main_v19 (F := Ideal) x0 x1 x2 x3 (ix4 b h q d) = Attn.attention x0 x1 x2 x3 b h q d := by
  rw [val_main_v19_apply]
  simp only [lidx_v19, ridx_v19, v18_row]
  rfl

end Cert.ReferenceIdeal.RefValue

end
-- ==== Proof.lean ====
/-
  A masked softmax attention kernel against its jnp reference, equal entry by entry over the extended reals.

  Both programs compute, for batch `b`, head `h`, query row `q` and feature `d`,
  `∑ k, w k * V (b, h, k, d)`, where the weights `w` of the row are: the scores
  `s k = (∑ j, Q (b, h, q, j) * K (b, h, k, j)) / 8`; a score whose mask word `M (b, 0, q, k)` is nonzero replaced by
  `-1e9`; `exp (s k - max s)` divided by the row's sum of those; and `0` again wherever the mask word is nonzero
  (`Attn.attention`, Proof/Softmax.lean).  The kernel works one (batch, 256-row block) at a time and inside it one
  head at a time, scales the queries by one eighth BEFORE the score product, and narrows to bf16 on the way into both
  matrix products (the identity on the extended reals); the reference scales the finished dot product and takes its
  row maximum once more against `-∞` (the identity too).  The one law that joins the two is that a nonnegative
  finite factor distributes over any sum of extended reals (`Attn.score_scale`): no finiteness of the inputs is used.

  Kernel side: the payload at an entry (Proof/KernelBody.lean), the loop's eight pieces tiling the output block
  (Proof/KernelPieces.lean), the 32 blocks tiling the array (Proof/KernelValue.lean, over the generated blockwise value
  leg).  Reference side: its generated run, read one operation at a time (Proof/RefValue.lean).  The frames of the two
  kernel programs are the generated ones; the reference's frame is its run with the result dropped; no operation of
  the kernel was rewritten when it was idealized, so `preserves` is `True`.
-/
import proofs.«406995_j42125039239585_3_alg».proof.Defs
import proofs.«406995_j42125039239585_3_alg».proof.Proof.Gen.Kernel
import proofs.«406995_j42125039239585_3_alg».proof.Proof.Gen.Kernel.Skeleton
import proofs.«406995_j42125039239585_3_alg».proof.Proof.Gen.Kernel.Loops
import proofs.«406995_j42125039239585_3_alg».proof.Proof.Gen.Kernel.Launch
import proofs.«406995_j42125039239585_3_alg».proof.Proof.Gen.Kernel.Points
import proofs.«406995_j42125039239585_3_alg».proof.Proof.Gen.Kernel.Frame
import proofs.«406995_j42125039239585_3_alg».proof.Proof.Gen.KernelIdeal
import proofs.«406995_j42125039239585_3_alg».proof.Proof.Gen.KernelIdeal.Skeleton
import proofs.«406995_j42125039239585_3_alg».proof.Proof.Gen.KernelIdeal.Loops
import proofs.«406995_j42125039239585_3_alg».proof.Proof.Gen.KernelIdeal.Launch
import proofs.«406995_j42125039239585_3_alg».proof.Proof.Gen.KernelIdeal.Points
import proofs.«406995_j42125039239585_3_alg».proof.Proof.Gen.KernelIdeal.Frame
import proofs.«406995_j42125039239585_3_alg».proof.Proof.Gen.ReferenceIdeal
import proofs.«406995_j42125039239585_3_alg».proof.Proof.Gen.Pre_finite_inputs
import proofs.«406995_j42125039239585_3_alg».proof.Proof.Gen.KernelIdeal.Value
import proofs.«406995_j42125039239585_3_alg».proof.Proof.Gen.ReferenceIdeal.Run
import proofs.«406995_j42125039239585_3_alg».proof.Proof.Gen.ReferenceIdeal.Read
import Idealize.ShloMosaic.Adequacy
import Idealize.ShloMosaic.Init
import proofs.«406995_j42125039239585_3_alg».proof.Proof.KernelValue
import proofs.«406995_j42125039239585_3_alg».proof.Proof.RefValue

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel: there is nothing to preserve. -/
theorem preserves : Cert.preserves_Kernel_KernelIdeal := trivial

/-- Both programs, from memories agreeing on the four arguments, end with their result at `Attn.attention` of those
    arguments: the kernel by `Whole.run`, the reference by its run read at an index (`RefValue.v19_apply`). -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2]
  funext i
  obtain ⟨b, h, q, d, rfl⟩ : ∃ (b : Fin 4) (h : Fin 8) (q : Fin 2048) (d : Fin 64), i = ix4 b h q d :=
    ⟨i 0, i 1, i 2, i 3, eq_ix4 i⟩
  rw [Cert.ReferenceIdeal.RefValue.v19_apply]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
